-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .i32⟩
  | .hbm, ⟨3, _⟩ => ⟨S_, .i32⟩
  | .hbm, ⟨4, _⟩ => ⟨S4096x4096, .i32⟩
  | .hbm, ⟨5, _⟩ => ⟨S4096x4096, .i32⟩
  | .hbm, ⟨6, _⟩ => ⟨S4096x4096, .i1⟩
  | .hbm, ⟨7, _⟩ => ⟨S4096x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.EyeContract.lean ====
/-
  The reference multiplies `x` by the identity matrix it builds on the host: `eye[k, j]` is the conversion to a float of
  the bit `iota₀[k, j] + 0 = iota₁[k, j]`, that is `1` when `k = j` and `0` otherwise, and the result's entry
  `(i, j)` is `∑ k, x[i, k] * eye[k, j]`. On the extended reals `a * 0 = 0` and `a * 1 = a` for EVERY `a`, the
  infinities included, so every term but the one at `k = j` vanishes and the sum is `x[i, j]`: the contraction against
  the identity is the identity map, with no finiteness asked of `x`.
-/
import proofs.«139236_j61933428409434_1_alg».proof.Proof.Gen.ReferenceIdeal.Read
import Idealize.ShloMosaic.Lib.StableHlo.Predicate

noncomputable section

namespace Cert.ReferenceIdeal.EyeContract

open Cert.ReferenceIdeal Cert.ReferenceIdeal.Gen Cert.ReferenceIdeal.Read Idealize.ShloMosaic

/-- An entry of the host's identity matrix: one on the diagonal, zero off it. The row and column numbers are below
    `4096`, far below `2 ^ 32`, so their 32-bit words are equal exactly when the numbers are. -/
theorem eye_entry (p : S4096x4096.Idx) :
    val_main_v5 (F := Ideal) p = if (p 0).val = (p 1).val then (1 : EReal) else 0 := by
  rw [val_main_v5_apply, val_main_v4_apply, val_main_v3_apply, val_main_v0_apply, val_main_v2_apply,
    val_main_c_apply, val_main_v1_apply]
  have h0 : (p 0).val < 4096 := (p 0).isLt
  have h1 : (p 1).val < 4096 := (p 1).isLt
  have hadd : IntOp.addi (BitVec.ofNat 32 (p 0).val) 0#32 = BitVec.ofNat 32 (p 0).val := by
    unfold IntOp.addi; exact BitVec.add_zero _
  rw [hadd]
  by_cases h : (p 0).val = (p 1).val
  · rw [if_pos h, h, (StableHlo.Predicate.cmpi_eq_iff).2 rfl]
    show (((1#1 : BitVec 1).toNat : ℝ) : EReal) = 1
    norm_num
  · rw [if_neg h]
    have hne : BitVec.ofNat 32 (p 0).val ≠ BitVec.ofNat 32 (p 1).val := by
      intro e
      have e' := congrArg BitVec.toNat e
      simp only [BitVec.toNat_ofNat] at e'
      omega
    have hc : IntOp.cmpi .eq (BitVec.ofNat 32 (p 0).val) (BitVec.ofNat 32 (p 1).val) = 0#1 := by
      show BitVec.ofBool (BitVec.ofNat 32 (p 0).val == BitVec.ofNat 32 (p 1).val) = 0#1
      rw [beq_eq_false_iff_ne.2 hne]; rfl
    rw [hc]
    show (((0#1 : BitVec 1).toNat : ℝ) : EReal) = 0
    norm_num

/-- The contraction of `x` against the identity matrix is `x`: in `∑ k, x[i, k] * eye[k, j]` only the term at
    `k = j` is not a product with zero, and it is `x[i, j] * 1`. -/
theorem matmul_eye (x : (⟨S8192x4096, .f32⟩ : BufTy).Contents (Elt Ideal)) :
    val_main_v6 (F := Ideal) x = x := by
  funext i
  rw [val_main_v6_apply]
  have hj : (i 1).val < 4096 := (i 1).isLt
  rw [Finset.sum_eq_single (⟨(i 1).val, hj⟩ : Fin 4096)]
  · rw [eye_entry, if_pos (show ((ridx_main_v6 i ⟨(i 1).val, hj⟩) 0).val = ((ridx_main_v6 i ⟨(i 1).val, hj⟩) 1).val from rfl)]
    have hl : lidx_main_v6 i ⟨(i 1).val, hj⟩ = i := funext fun a => Fin.ext (by
      match a with
      | ⟨0, _⟩ => rfl
      | ⟨1, _⟩ => rfl)
    rw [hl]
    exact mul_one (x i : EReal)
  · intro k _ hk
    have hne : ¬ ((ridx_main_v6 i k) 0).val = ((ridx_main_v6 i k) 1).val := by
      show ¬ k.val = (i 1).val
      intro e; exact hk (Fin.ext e)
    rw [eye_entry, if_neg hne]
    exact mul_zero (x (lidx_main_v6 i k) : EReal)
  · intro h; exact absurd (Finset.mem_univ _) h

end Cert.ReferenceIdeal.EyeContract

end
-- ==== Proof.CopyBlocks.lean ====
/-
  The kernel copies: at grid point `t` its body loads the whole input block (rows `512 t … 512 t + 511`, every
  column) and stores it unchanged as the whole output block, and the output's index map is the input's. So what point `t`
  writes back is block `t` of the argument array itself, the sixteen row blocks cover all `8192` rows (row `r` lies
  in block `r / 512`), and after the run the output array IS the argument array.
-/
import proofs.«139236_j61933428409434_1_alg».proof.Proof.Gen.KernelIdeal.Value

noncomputable section

namespace Cert.KernelIdeal.CopyBlocks

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store both start at the block's origin. -/
theorem origin : (![0, 0] : Fin 2 → Nat) = fun _ => 0 := funext fun a => by fin_cases a <;> rfl

/-- The two index maps agree at every grid point, and the output's block index is a row block below sixteen in the
    one column block. -/
theorem index_same : ∀ t : Fin cfg0.N, win0_0.index t (0 : Fin 2) = win0_1.index t (0 : Fin 2)
    ∧ win0_0.index t (1 : Fin 2) = win0_1.index t (1 : Fin 2)
    ∧ win0_1.index t (0 : Fin 2) ≤ 15
    ∧ win0_1.index t (1 : Fin 2) = 0 :=
  (by decide +kernel : ∀ t : Fin grid0.N, _)

/-- Every one of the sixteen row blocks is some grid point's. -/
theorem row_block_onto : ∀ q : Fin 16, ∃ t : Fin cfg0.N, win0_1.index t = ![q.val, 0] :=
  (by decide +kernel : ∀ q : Fin 16, ∃ t : Fin grid0.N, win0_1.index t = ![q.val, 0])

/-- What point `t` writes back is block `t` of the argument array: the stored value is the loaded block, and the
    input's block at `t` sits where the output's does. -/
theorem flushed_eq (c : Dev nD) (t : Fin cfg0.N) :
    (dats m 0 c).flushed 1 t = ((cfg0.win 1).blk t).view.read (Elt F) (V m c main_arg0) := by
  rw [flushed1]
  unfold out0_1
  rw [View.canon_unit_zero origin]
  simp only [View.ld_unit_zero (S := S512x4096) origin]
  obtain ⟨e0, e1, -, -⟩ := index_same t
  funext j
  show V m c main_arg0 (((cfg0.win 0).blk t).view.emb j) = V m c main_arg0 (((cfg0.win 1).blk t).view.emb j)
  have hemb : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; rw [e0]
    | ⟨1, _⟩ => show win0_0.index t (1 : Fin 2) * 4096 + 1 * (j 1).val = win0_1.index t (1 : Fin 2) * 4096 + 1 * (j 1).val; rw [e1]
  rw [hemb]

/-- An index of the array is in point `t`'s output block iff each coordinate is in the block's range on its axis. -/
theorem mem_blk (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- The output blocks cover the array: row `r` is in row block `r / 512`, and each block spans every column. -/
theorem cover (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ := row_block_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the run the output array is the argument array as launched. -/
theorem final (c : Dev nD) : (dats m 0 c).arrAt 1 cfg0.N = V m c main_arg0 :=
  (dats m 0 c).arrAt_eq_of_cover 1 (V m c main_arg0) (fun t _ => flushed_eq m c t) cover

/-- The kernel's run: it terminates with the result array equal to the argument array, the argument unchanged. -/
theorem run : θ_run defs (onTc (τ := τ) (main (F := F))) ⟨m, fun _ => 0, ρ⟩ fun r => ∀ c : Dev nD,
      r.2.mem ((c : Thread nD τ).loc main_v0) = m ((c : Thread nD τ).loc main_arg0)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.CopyBlocks

end
-- ==== Proof.lean ====
/-
  The kernel is a tiled copy, `y = x` over f32[8192, 4096] in sixteen row blocks of 512 rows; the reference is the product
  `x · I` with the 4096 × 4096 identity matrix it builds from two iotas. Read over the extended reals the two agree for
  every `x`: entry `(i, j)` of the product is `∑ k, x[i, k] * I[k, j]`, every term with `k ≠ j` is a product with zero,
  which is zero whatever `x[i, k]` is, and the term at `k = j` is `x[i, j] * 1` (Proof/EyeContract.lean). The kernel's
  result array is the argument array because each grid point writes back the block it loaded, at the same place, and the
  sixteen blocks cover the array (Proof/CopyBlocks.lean). The three frames are the generated runs; the idealization rewrote
  nothing, so there is nothing to preserve.
-/
import proofs.«139236_j61933428409434_1_alg».proof.Defs
import proofs.«139236_j61933428409434_1_alg».proof.Proof.Gen.Kernel
import proofs.«139236_j61933428409434_1_alg».proof.Proof.Gen.Kernel.Skeleton
import proofs.«139236_j61933428409434_1_alg».proof.Proof.Gen.Kernel.Launch
import proofs.«139236_j61933428409434_1_alg».proof.Proof.Gen.Kernel.Points
import proofs.«139236_j61933428409434_1_alg».proof.Proof.Gen.Kernel.Frame
import proofs.«139236_j61933428409434_1_alg».proof.Proof.Gen.KernelIdeal
import proofs.«139236_j61933428409434_1_alg».proof.Proof.Gen.KernelIdeal.Skeleton
import proofs.«139236_j61933428409434_1_alg».proof.Proof.Gen.KernelIdeal.Launch
import proofs.«139236_j61933428409434_1_alg».proof.Proof.Gen.KernelIdeal.Points
import proofs.«139236_j61933428409434_1_alg».proof.Proof.Gen.KernelIdeal.Frame
import proofs.«139236_j61933428409434_1_alg».proof.Proof.Gen.ReferenceIdeal
import proofs.«139236_j61933428409434_1_alg».proof.Proof.Gen.Pre_finite_inputs
import proofs.«139236_j61933428409434_1_alg».proof.Proof.Gen.KernelIdeal.Value
import proofs.«139236_j61933428409434_1_alg».proof.Proof.Gen.ReferenceIdeal.Run
import proofs.«139236_j61933428409434_1_alg».proof.Proof.Gen.ReferenceIdeal.Read
import proofs.«139236_j61933428409434_1_alg».proof.Proof.EyeContract
import proofs.«139236_j61933428409434_1_alg».proof.Proof.CopyBlocks
import Idealize.ShloMosaic.Adequacy
import Idealize.ShloMosaic.Init

noncomputable section

namespace Cert.Proof

open Idealize.ShloMosaic Idealize.SL.Sem

/-- Each program runs to the end with its argument array unchanged: the two kernels by their generated frames, the
    reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the argument array as their result: the kernel because it copies it block by block, the
    reference because the product with the identity matrix is the identity map on the extended reals. The
    precondition is not used. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    Cert.KernelIdeal.CopyBlocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.EyeContract.matmul_eye]
  exact hagree c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
